-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S100000x16, .f32⟩
  | .hbm, ⟨67, _⟩ => ⟨S100000x2, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x2, .f32⟩
  | .hbm, ⟨77, _⟩ => ⟨S3300000x1, .f32⟩
  | .hbm, ⟨78, _⟩ => ⟨S3300000x2, .f32⟩
  | .hbm, ⟨79, _⟩ => ⟨S3300000x2, .f32⟩
  | .hbm, ⟨80, _⟩ => ⟨S_, .f32⟩
  | .hbm, ⟨81, _⟩ => ⟨S100000x2, .f32⟩
  | .hbm, ⟨82, _⟩ => ⟨S3300000x1, .i32⟩
  | .hbm, ⟨83, _⟩ => ⟨S100000x2, .f32⟩
  | .hbm, ⟨84, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S2, .f32⟩
  | .local _ .vmem, ⟨18, _⟩ => ⟨S10000x2, .f32⟩
  | .local _ .vmem, ⟨19, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S10000x2_S10000x2 : S10000x2.ShapeCasts S10000x2
  inb_S2_S2_0 : ∀ a, (![0] : Fin 1 → Nat) a + S2.size a ≤ S2.size a
  h_S2 : 0 < S2.numel
  shapeCasts_S2_S1x2 : S2.ShapeCasts S1x2
  shapeCasts_S1x2_S1x2 : S1x2.ShapeCasts S1x2
  broadcasts_S1x2_S10000x2 : S1x2.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2.size a ≤ S2.size a
  hwx3_1 : ∀ i : grid3.Coords, EltTy.bits .f32 = 32 ∨ (Rect.block (s := S2) S2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x2, .f32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x2, .f32⟩
  | .hbm, ⟨118, _⟩ => ⟨S3300000x1, .f32⟩
  | .hbm, ⟨119, _⟩ => ⟨S3300000x2, .f32⟩
  | .hbm, ⟨120, _⟩ => ⟨S3300000x2, .f32⟩
  | .hbm, ⟨121, _⟩ => ⟨S_, .f32⟩
  | .hbm, ⟨122, _⟩ => ⟨S100000x2, .f32⟩
  | .hbm, ⟨123, _⟩ => ⟨S3300000x1, .i32⟩
  | .hbm, ⟨124, _⟩ => ⟨S100000x2, .f32⟩
  | .hbm, ⟨125, _⟩ => ⟨S1x2, .f32⟩
  | .hbm, ⟨126, _⟩ => ⟨S100000x2, .f32⟩
  | .hbm, ⟨127, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.Spec.lean ====
/-
  The mathematics of a two-layer graph convolution, index by index on the extended reals, for the two dense stages the
  accelerator computes block by block: a matrix product of node features with a weight matrix, and a bias added along
  the feature axis (followed, after the first layer, by the positive part). The sparse aggregation between them
  (gather, scale by the symmetric degree normalisation, scatter-add) is the same host computation on both sides of the
  claim and is never opened; only these dense stages are stated as functions of their operand arrays.
-/
import Idealize.ShloMosaic.Lib.ValueIdx

noncomputable section

open scoped BigOperators

namespace Cert.GcnSpec

open Idealize.ShloMosaic Idealize.ShloMosaic.ValueIdx

/-- The matrix product: entry `(p, q)` is the sum over the inner axis of row `p` of the features times column `q` of the
    weights. -/
def dense {n k c : ℕ} (x : FVec Ideal ⟨2, ![n, k]⟩ .f32) (w : FVec Ideal ⟨2, ![k, c]⟩ .f32) : FVec Ideal ⟨2, ![n, c]⟩ .f32 :=
  fun i => ∑ r : Fin k, x (ix2 (n0 := n) (i 0) r) * w (ix2 r (n1 := c) (i 1))

theorem dense_apply {n k c : ℕ} (x : FVec Ideal ⟨2, ![n, k]⟩ .f32) (w : FVec Ideal ⟨2, ![k, c]⟩ .f32) (p : Fin n) (q : Fin c) :
    dense x w (ix2 p q) = ∑ r : Fin k, x (ix2 p r) * w (ix2 r q) := rfl

/-- The bias added to every row: entry `(p, q)` gains the bias of feature `q`. -/
def addBias {n c : ℕ} (a : FVec Ideal ⟨2, ![n, c]⟩ .f32) (b : FVec Ideal ⟨1, ![c]⟩ .f32) : FVec Ideal ⟨2, ![n, c]⟩ .f32 :=
  fun i => a i + b (ix1 (n := c) (i 1))

theorem addBias_apply {n c : ℕ} (a : FVec Ideal ⟨2, ![n, c]⟩ .f32) (b : FVec Ideal ⟨1, ![c]⟩ .f32) (p : Fin n) (q : Fin c) :
    addBias a b (ix2 p q) = a (ix2 p q) + b (ix1 q) := rfl

/-- The positive part, entry by entry. -/
def relu {n c : ℕ} (a : FVec Ideal ⟨2, ![n, c]⟩ .f32) : FVec Ideal ⟨2, ![n, c]⟩ .f32 :=
  fun i => max (a i) 0

theorem relu_apply {n c : ℕ} (a : FVec Ideal ⟨2, ![n, c]⟩ .f32) (i : (⟨2, ![n, c]⟩ : Shape).Idx) :
    relu a i = max (a i) 0 := rfl

end Cert.GcnSpec

end
-- ==== Proof.Chain.lean ====
/-
  The sparse half of the two-layer graph convolution, which both programs compute with the same host operations and which
  is therefore carried as named functions and never opened: the edge list's endpoints with one self loop per node
  appended, the wrap of negative indices, the in-degree with its inverse square root (zero where the degree is not
  positive), the symmetric normalisation of every edge, and the aggregation itself — gather the source rows, scale each
  by its edge's normalisation, add into the destination rows. The whole network is then these aggregations around four
  dense stages (a matrix product, a bias with the positive part, a matrix product, a bias), taken as parameters so that
  the two programs' dense stages can be put in their places.
-/
import proofs.«118971_j29867202576799_1_alg».proof.Proof.Gen.ReferenceIdeal
import proofs.«118971_j29867202576799_1_alg».proof.Proof.Spec

noncomputable section

namespace Cert.Gcn

open Cert.ReferenceIdeal Cert.ReferenceIdeal.Gen Idealize.ShloMosaic

/-- Source endpoints: row 0 of the edge list, then the self loops `0 … 99999`. -/
def srcOf (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- Destination endpoints: row 1 of the edge list, then the self loops. -/
def dstOf (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative index counts from the end: the number of nodes is added to it. -/
def wrap (idx : IVec S3300000 32) : IVec S3300000 32 :=
  select (cmpi .slt idx (broadcastInDim S3300000 ![] bcast_S_S3300000 (constantI S_ 32 0#32))) (addi idx (broadcastInDim S3300000 ![] bcast_S_S3300000 (constantI S_ 32 100000#32))) idx

/-- In-degree of every node, self loop included: ones added into the destinations. -/
def degOf (dst : IVec S3300000 32) : FVec Ideal S100000 .f32 :=
  Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 dst) (broadcastInDim S3300000 ![] bcast_S_S3300000 (constant (F := Ideal) S_ .f32 0x3F800000#32))

/-- The degree's inverse square root where the degree is positive, zero elsewhere. -/
def invSqrtDeg (dst : IVec S3300000 32) : FVec Ideal S100000 .f32 :=
  select (cmpf (F := Ideal) .ogt (degOf dst) (broadcastInDim S100000 ![] bcast_S_S100000 (constant (F := Ideal) S_ .f32 0x00000000#32))) (Host.rsqrt (F := Ideal) (maximumf (F := Ideal) (degOf dst) (broadcastInDim S100000 ![] bcast_S_S100000 (constant (F := Ideal) S_ .f32 0x3F800000#32)))) (broadcastInDim S100000 ![] bcast_S_S100000 (id (constant (F := Ideal) S_ .f32 0x00000000#32)))

/-- Each edge's weight: the product of its two endpoints' inverse square-root degrees. -/
def normOf (src dst : IVec S3300000 32) : FVec Ideal S3300000 .f32 :=
  mulf (F := Ideal) (Host.gather gather_S100000_S3300000x1_S3300000_n_0_n_n_0_1_1 (invSqrtDeg dst) (broadcastInDim S3300000x1 ![0] bcast_S3300000_S3300000x1_0 (wrap src))) (Host.gather gather_S100000_S3300000x1_S3300000_n_0_n_n_0_1_1 (invSqrtDeg dst) (broadcastInDim S3300000x1 ![0] bcast_S3300000_S3300000x1_0 (wrap dst)))

/-- Aggregation of 16 features: every edge carries its source's row, scaled by the edge's weight, into its destination's row. -/
def agg16 (src dst : IVec S3300000 32) (nrm : FVec Ideal S3300000 .f32) (h : FVec Ideal S100000x16 .f32) : FVec Ideal S100000x16 .f32 :=
  Host.scatterAdd (F := Ideal) scatter_S100000x16_S3300000x1_S3300000x16_1_0_0_1 (broadcastInDim S100000x16 ![] bcast_S_S100000x16 (constant (F := Ideal) S_ .f32 0x00000000#32)) (broadcastInDim S3300000x1 ![0] bcast_S3300000_S3300000x1_0 dst) (mulf (F := Ideal) (Host.gather gather_S100000x16_S3300000x1_S3300000x16_1_0_n_n_0_1_116 h (broadcastInDim S3300000x1 ![0] bcast_S3300000_S3300000x1_0 (wrap src))) (broadcastInDim S3300000x16 ![0, 1] bcast_S3300000x1_S3300000x16_0_1 (broadcastInDim S3300000x1 ![0] bcast_S3300000_S3300000x1_0 nrm)))

/-- The same aggregation of 2 features. -/
def agg2 (src dst : IVec S3300000 32) (nrm : FVec Ideal S3300000 .f32) (h : FVec Ideal S100000x2 .f32) : FVec Ideal S100000x2 .f32 :=
  Host.scatterAdd (F := Ideal) scatter_S100000x2_S3300000x1_S3300000x2_1_0_0_1 (broadcastInDim S100000x2 ![] bcast_S_S100000x2 (constant (F := Ideal) S_ .f32 0x00000000#32)) (broadcastInDim S3300000x1 ![0] bcast_S3300000_S3300000x1_0 dst) (mulf (F := Ideal) (Host.gather gather_S100000x2_S3300000x1_S3300000x2_1_0_n_n_0_1_12 h (broadcastInDim S3300000x1 ![0] bcast_S3300000_S3300000x1_0 (wrap src))) (broadcastInDim S3300000x2 ![0, 1] bcast_S3300000x1_S3300000x2_0_1 (broadcastInDim S3300000x1 ![0] bcast_S3300000_S3300000x1_0 nrm)))

/-- The network over given dense stages: product, aggregate, bias and positive part; product, aggregate, bias. -/
def net (D1 : FVec Ideal S100000x128 .f32 → FVec Ideal S128x16 .f32 → FVec Ideal S100000x16 .f32)
    (B1 : FVec Ideal S100000x16 .f32 → FVec Ideal S16 .f32 → FVec Ideal S100000x16 .f32)
    (D2 : FVec Ideal S100000x16 .f32 → FVec Ideal S16x2 .f32 → FVec Ideal S100000x2 .f32)
    (B2 : FVec Ideal S100000x2 .f32 → FVec Ideal S2 .f32 → FVec Ideal S100000x2 .f32)
    (x : FVec Ideal S100000x128 .f32) (ei : IVec S2x3200000 32) (w1 : FVec Ideal S128x16 .f32) (b1 : FVec Ideal S16 .f32)
    (w2 : FVec Ideal S16x2 .f32) (b2 : FVec Ideal S2 .f32) : FVec Ideal S100000x2 .f32 :=
  B2 (agg2 (srcOf ei) (dstOf ei) (normOf (srcOf ei) (dstOf ei))
    (D2 (B1 (agg16 (srcOf ei) (dstOf ei) (normOf (srcOf ei) (dstOf ei)) (D1 x w1)) b1) w2)) b2

/-- The network with the dense stages as the mathematics states them. -/
def spec (x : FVec Ideal S100000x128 .f32) (ei : IVec S2x3200000 32) (w1 : FVec Ideal S128x16 .f32) (b1 : FVec Ideal S16 .f32)
    (w2 : FVec Ideal S16x2 .f32) (b2 : FVec Ideal S2 .f32) : FVec Ideal S100000x2 .f32 :=
  net Cert.GcnSpec.dense (fun a b => Cert.GcnSpec.relu (Cert.GcnSpec.addBias a b)) Cert.GcnSpec.dense Cert.GcnSpec.addBias x ei w1 b1 w2 b2

end Cert.Gcn

end
-- ==== Proof.Region0.lean ====
/-
  Region 0: the first layer's matrix product, ten blocks of 10000 rows.
-/
import proofs.«118971_j29867202576799_1_alg».proof.Proof.Gen.KernelIdeal.Frame
import proofs.«118971_j29867202576799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The contraction's operand indices, axis by axis: the left operand is read at the output's row and the contraction
    coordinate, the right operand at the contraction coordinate and the output's column. -/
theorem left_row (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem left_inner (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem right_inner (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem right_col (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- One block's product: entry (p, q) of the body's payload is the sum over the inner axis of row p of the feature
    block times column q of the weights. -/
theorem block_product (x0 : Vec Ideal S10000x128 .f32) (x1 : Vec Ideal S128x16 .f32) (p : Fin 10000) (q : Fin 16) :
    k0_pay1 (F := Ideal) x0 x1 (ix2 p q) = ∑ r : Fin 128, x0 (ix2 p r) * x1 (ix2 r q) := by
  unfold k0_pay1
  refine (Ideal.matmul_constant_zero_apply dot_S10000x128_S128x16_S10000x16_1_0_0_1_n_n none _ _ _).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact left_row _ _
    | ⟨1, _⟩ => exact (left_inner _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (right_inner _ _).trans hk
    | ⟨1, _⟩ => exact right_col _ _)
  rw [el, er]
  rfl

/-- The zero offset of the body's one load and one store per window. -/
theorem origin : (![0, 0] : Fin 2 → Nat) = fun _ => 0 := funext fun a => by
  match a with
  | ⟨0, _⟩ => rfl
  | ⟨1, _⟩ => rfl

/-- A block's product is the whole product at an index, when the feature block's row p is row (i 0) of the feature
    array and the weight block's column q is column (i 1) of the weight array. -/
theorem product_of_blocks (A : FVec Ideal S100000x128 .f32) (B : FVec Ideal S128x16 .f32)
    (x0 : Vec Ideal S10000x128 .f32) (x1 : Vec Ideal S128x16 .f32) (i : S100000x16.Idx) (p : Fin 10000) (q : Fin 16)
    (hrow : ∀ r : Fin 128, x0 (ix2 p r) = A (ix2 (i 0) r)) (hcol : ∀ r : Fin 128, x1 (ix2 r q) = B (ix2 r (i 1))) :
    k0_pay1 (F := Ideal) x0 x1 (ix2 p q) = Cert.GcnSpec.dense (n := 100000) (k := 128) (c := 16) A B i := by
  refine (block_product x0 x1 p q).trans ?_
  show _ = ∑ r : Fin 128, A (ix2 (i 0) r) * B (ix2 r (i 1))
  exact Finset.sum_congr rfl fun r _ => by rw [hrow r, hcol r]

/-- The index maps over the grid: the feature block and the output block move together down the rows, one block of
    rows per point; the columns are never blocked, and the weight block never moves. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block of rows is some point's. -/
theorem block_onto : ∀ (b : Fin 10), ∃ t : Fin cfg0.N, win0_2.index t = ![b.val, 0] :=
  (by decide +kernel : ∀ (b : Fin 10), ∃ t : Fin grid0.N, win0_2.index t = ![b.val, 0])

/-- What a point writes back is its block of the whole product of the two operand arrays. -/
theorem flushed_eq (c : Dev nD) (t : Fin cfg0.N) :
    (dat0 (F := Ideal) V c).flushed 2 t = ((cfg0.win 2).blk t).view.read (Elt Ideal)
      (Cert.GcnSpec.dense (n := 100000) (k := 128) (c := 16) (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S10000x128) origin, View.ld_unit_zero (S := S128x16) origin]
  obtain ⟨e0, e1, e2, e3, e4, e5⟩ := block_indices t
  funext j
  obtain ⟨p, q, rfl⟩ : ∃ (p : Fin 10000) (q : Fin 16), j = ix2 p q := ⟨j 0, j 1, eq_ix2 j⟩
  show k0_pay1 (F := Ideal) (iblk0 V c 0 t) (iblk0 V c 1 t) (ix2 p q)
    = Cert.GcnSpec.dense (n := 100000) (k := 128) (c := 16) (V c main_arg0) (V c main_arg2) (((cfg0.win 2).blk t).view.emb (ix2 p q))
  refine product_of_blocks _ _ _ _ _ p q (fun r => ?_) (fun r => ?_)
  · show V c main_arg0 (((cfg0.win 0).blk t).view.emb (ix2 p r)) = V c main_arg0 (ix2 ((((cfg0.win 2).blk t).view.emb (ix2 p q)) 0) r)
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * r.val = r.val; omega
  · show V c main_arg2 (((cfg0.win 1).blk t).view.emb (ix2 r q)) = V c main_arg2 (ix2 r ((((cfg0.win 2).blk t).view.emb (ix2 p q)) 1))
    refine congrArg (V c main_arg2) ?_
    funext a; apply Fin.ext
    match a with
    | ⟨0, _⟩ => show win0_1.index t (0 : Fin 2) * 128 + 1 * r.val = r.val; omega
    | ⟨1, _⟩ => show win0_1.index t (1 : Fin 2) * 16 + 1 * q.val = win0_2.index t (1 : Fin 2) * 16 + 1 * q.val; omega

/-- An index of the output array is in a point's block iff each coordinate is in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Every index of the output array is in some point's block: row r is in block r / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

theorem value (c : Dev nD) :
    (dat0 (F := Ideal) V c).arrAt 2 cfg0.N = Cert.GcnSpec.dense (n := 100000) (k := 128) (c := 16) (V c main_arg0) (V c main_arg2) :=
  (dat0 (F := Ideal) V c).arrAt_eq_of_cover 2
    (Cert.GcnSpec.dense (n := 100000) (k := 128) (c := 16) (V c main_arg0) (V c main_arg2))
    (fun t _ => flushed_eq V c t) covered

end Cert.KernelIdeal.Region0

end
-- ==== Proof.Region1.lean ====
/-
  Region 1: the first layer's bias and positive part, ten blocks of 10000 rows.
-/
import proofs.«118971_j29867202576799_1_alg».proof.Proof.Gen.KernelIdeal.Frame
import proofs.«118971_j29867202576799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The first layer's block at one row and one feature: the positive part of the row's entry plus that feature's
    bias. The bias vector is viewed as one row and that row is repeated down the block. -/
theorem pay_apply (x0 : Vec Ideal S10000x16 .f32) (x1 : Vec Ideal S16 .f32) (p : Fin 10000) (q : Fin 16) :
    k1_pay1 x0 x1 (ix2 p q) = max (x0 (ix2 p q) + x1 (ix1 q)) 0 := by
  unfold k1_pay1
  refine (maximumf_apply _ _ _).trans ?_
  refine congrArg₂ (max : EReal → EReal → EReal) ?_ ?_
  · refine (addf_apply _ _ _).trans ?_
    rw [shapeCast_self]
    congr 1
    refine (broadcastTo_1b_ab_apply _ _ p q).trans ?_
    rw [shapeCast_self]
    exact shapeCast_a_1a_apply x1 _ 0 q
  · exact Ideal.ofBits_zero_f32

/-- The same at any index of the block. -/
theorem pay_at (x0 : Vec Ideal S10000x16 .f32) (x1 : Vec Ideal S16 .f32) (j : S10000x16.Idx) :
    k1_pay1 x0 x1 j = max (x0 j + x1 (ix1 (j 1))) 0 := by
  have e : j = ix2 (n0 := 10000) (n1 := 16) (j 0) (j 1) := eq_ix2 j
  exact (congrArg (k1_pay1 x0 x1) e).trans
    ((pay_apply x0 x1 (j 0) (j 1)).trans (congrArg (fun y => max (x0 y + x1 (ix1 (j 1))) 0) e.symm))

/-- The positive part of an entry plus a bias, read at equal places. -/
theorem entry_congr (a : FVec Ideal S100000x16 .f32) (b : FVec Ideal S16 .f32) {i i' : S100000x16.Idx} {k k' : S16.Idx}
    (hi : i = i') (hk : k = k') : max (a i + b k) 0 = max (a i' + b k') 0 := by rw [hi, hk]

theorem zero2 : (![0, 0] : Fin 2 → Nat) = fun _ => 0 := funext fun a => by fin_cases a <;> rfl
theorem zero1 : (![0] : Fin 1 → Nat) = fun _ => 0 := funext fun a => by fin_cases a; rfl

/-- The index maps over the ten points: the input rows move with the output rows, block `t` of rows at point `t`; the
    feature axis is never cut; the bias is the whole vector at every point. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 1) = 0
    ∧ win1_2.index t (0 : Fin 2) = t.val
    ∧ win1_2.index t (1 : Fin 2) = 0 :=
  (by decide +kernel : ∀ t : Fin grid1.N, _)

/-- What point `t` writes back is block `t` of the positive part of the biased array. -/
theorem flushed_eq (c : Dev nD) (t : Fin cfg1.N) :
    (dat1 (F := Ideal) V c).flushed 2 t = ((cfg1.win 2).blk t).view.read (Elt Ideal)
      (Cert.GcnSpec.relu (n := 100000) (c := 16) (Cert.GcnSpec.addBias (V c main_v45) (V c main_arg3))) := by
  show (cfg1.win 2).cut (grid1.coords t) ((dat1 V c).after 2 t) = _
  rw [after1_2]
  unfold out1_2
  rw [View.canon_unit_zero zero2]
  simp only [View.ld_unit_zero (S := S10000x16) zero2, View.ld_unit_zero (S := S16) zero1]
  obtain ⟨e0, e1, e2, e3, e4⟩ := index_facts t
  funext j
  show k1_pay1 (iblk1 V c 0 t) (iblk1 V c 1 t) j
    = Cert.GcnSpec.relu (n := 100000) (c := 16) (Cert.GcnSpec.addBias (V c main_v45) (V c main_arg3)) (((cfg1.win 2).blk t).view.emb j)
  refine (pay_at _ _ j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 16 + 1 * (j 1).val = win1_2.index t (1 : Fin 2) * 16 + 1 * (j 1).val; omega
  exact entry_congr (V c main_v45) (V c main_arg3) h0 h1

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v46).slice (win1_2.rect t)).set ↔ _
  rw [View.set_slice_whole, Rect.mem_set_unit]
  exact Iff.rfl

/-- Every row is in the block of the point numbered by the row's ten-thousand. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 10 := N_1
  have ht : (i 0).val / 10000 < cfg1.N := by show _ < grid1.N; rw [hN]; omega
  obtain ⟨e0, e1, e2, e3, e4⟩ := index_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e3]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val ∧ (i 1).val < win1_2.index ⟨(i 0).val / 10000, ht⟩ (1 : Fin 2) * 16 + 16
    rw [e4]; omega

theorem value (c : Dev nD) :
    (dat1 (F := Ideal) V c).arrAt 2 cfg1.N = Cert.GcnSpec.relu (n := 100000) (c := 16) (Cert.GcnSpec.addBias (V c main_v45) (V c main_arg3)) :=
  (dat1 (F := Ideal) V c).arrAt_eq_of_cover 2 (Cert.GcnSpec.relu (n := 100000) (c := 16) (Cert.GcnSpec.addBias (V c main_v45) (V c main_arg3)))
    (fun t _ => flushed_eq V c t) cover

end Cert.KernelIdeal.Region1

end
-- ==== Proof.Region2.lean ====
/-
  Region 2: the second layer's matrix product, ten blocks of 10000 rows.
-/
import proofs.«118971_j29867202576799_1_alg».proof.Proof.Gen.KernelIdeal.Frame
import proofs.«118971_j29867202576799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The contraction's operand indices, axis by axis: the left operand is read at the output's row and the contraction
    coordinate, the right operand at the contraction coordinate and the output's column. -/
theorem left_row (i : S10000x2.Idx) (q : dot_S10000x16_S16x2_S10000x2_1_0_0_1_n_n.contr.Idx) :
    (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
theorem left_inner (i : S10000x2.Idx) (q : dot_S10000x16_S16x2_S10000x2_1_0_0_1_n_n.contr.Idx) :
    (dot_S10000x16_S16x2_S10000x2_1_0_0_1_n_n.lhsIdx i q 1).val = (q ⟨0, by decide⟩).val :=
  dot_S10000x16_S16x2_S10000x2_1_0_0_1_n_n.lhsIdx_val_of_single rfl i q
theorem right_inner (i : S10000x2.Idx) (q : dot_S10000x16_S16x2_S10000x2_1_0_0_1_n_n.contr.Idx) :
    (dot_S10000x16_S16x2_S10000x2_1_0_0_1_n_n.rhsIdx i q 0).val = (q ⟨0, by decide⟩).val :=
  dot_S10000x16_S16x2_S10000x2_1_0_0_1_n_n.rhsIdx_val_of_single rfl i q
theorem right_col (i : S10000x2.Idx) (q : dot_S10000x16_S16x2_S10000x2_1_0_0_1_n_n.contr.Idx) :
    (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- One block's product: entry (p, q) of the body's payload is the sum over the inner axis of row p of the hidden
    block times column q of the weights (the cast of the hidden block to its own shape changes nothing). -/
theorem block_product (x0 : Vec Ideal S10000x16 .f32) (x1 : Vec Ideal S16x2 .f32) (p : Fin 10000) (q : Fin 2) :
    k2_pay1 (F := Ideal) x0 x1 (ix2 p q) = ∑ r : Fin 16, x0 (ix2 p r) * x1 (ix2 r q) := by
  unfold k2_pay1
  refine (Ideal.matmul_constant_zero_apply dot_S10000x16_S16x2_S10000x2_1_0_0_1_n_n none _ _ _).trans ?_
  rw [← Equiv.sum_comp (contrEquiv1 dot_S10000x16_S16x2_S10000x2_1_0_0_1_n_n 16 rfl rfl).symm]
  refine Finset.sum_congr rfl fun k _ => ?_
  have hk := contrEquiv1_symm_val dot_S10000x16_S16x2_S10000x2_1_0_0_1_n_n 16 rfl rfl k
  have el : dot_S10000x16_S16x2_S10000x2_1_0_0_1_n_n.lhsIdx (ix2 p q) ((contrEquiv1 dot_S10000x16_S16x2_S10000x2_1_0_0_1_n_n 16 rfl rfl).symm k) = ix2 p k := funext fun a => Fin.ext (by
    match a with
    | ⟨0, _⟩ => exact left_row _ _
    | ⟨1, _⟩ => exact (left_inner _ _).trans hk)
  have er : dot_S10000x16_S16x2_S10000x2_1_0_0_1_n_n.rhsIdx (ix2 p q) ((contrEquiv1 dot_S10000x16_S16x2_S10000x2_1_0_0_1_n_n 16 rfl rfl).symm k) = ix2 k q := funext fun a => Fin.ext (by
    match a with
    | ⟨0, _⟩ => exact (right_inner _ _).trans hk
    | ⟨1, _⟩ => exact right_col _ _)
  rw [el, er]
  show shapeCast S10000x16 x0 shapeCasts_S10000x16_S10000x16 (ix2 p k) * x1 (ix2 k q) = x0 (ix2 p k) * x1 (ix2 k q)
  rw [shapeCast_self]

/-- The zero offset of the body's one load and one store per window. -/
theorem origin : (![0, 0] : Fin 2 → Nat) = fun _ => 0 := funext fun a => by
  match a with
  | ⟨0, _⟩ => rfl
  | ⟨1, _⟩ => rfl

/-- A block's product is the whole product at an index, when the hidden block's row p is row (i 0) of the hidden
    array and the weight block's column q is column (i 1) of the weight array. -/
theorem product_of_blocks (A : FVec Ideal S100000x16 .f32) (B : FVec Ideal S16x2 .f32)
    (x0 : Vec Ideal S10000x16 .f32) (x1 : Vec Ideal S16x2 .f32) (i : S100000x2.Idx) (p : Fin 10000) (q : Fin 2)
    (hrow : ∀ r : Fin 16, x0 (ix2 p r) = A (ix2 (i 0) r)) (hcol : ∀ r : Fin 16, x1 (ix2 r q) = B (ix2 r (i 1))) :
    k2_pay1 (F := Ideal) x0 x1 (ix2 p q) = Cert.GcnSpec.dense (n := 100000) (k := 16) (c := 2) A B i := by
  refine (block_product x0 x1 p q).trans ?_
  show _ = ∑ r : Fin 16, A (ix2 (i 0) r) * B (ix2 r (i 1))
  exact Finset.sum_congr rfl fun r _ => by rw [hrow r, hcol r]

/-- The index maps over the grid: the hidden block and the output block move together down the rows, one block of
    rows per point; the columns are never blocked, and the weight block never moves. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block of rows is some point's. -/
theorem block_onto : ∀ (b : Fin 10), ∃ t : Fin cfg2.N, win2_2.index t = ![b.val, 0] :=
  (by decide +kernel : ∀ (b : Fin 10), ∃ t : Fin grid2.N, win2_2.index t = ![b.val, 0])

/-- What a point writes back is its block of the whole product of the two operand arrays. -/
theorem flushed_eq (c : Dev nD) (t : Fin cfg2.N) :
    (dat2 (F := Ideal) V c).flushed 2 t = ((cfg2.win 2).blk t).view.read (Elt Ideal)
      (Cert.GcnSpec.dense (n := 100000) (k := 16) (c := 2) (V c main_v46) (V c main_arg4)) := by
  show (cfg2.win 2).cut (grid2.coords t) ((dat2 (F := Ideal) V c).after 2 t) = _
  rw [after2_2]
  unfold out2_2
  rw [View.canon_unit_zero origin]
  simp only [View.ld_unit_zero (S := S10000x16) origin, View.ld_unit_zero (S := S16x2) origin]
  obtain ⟨e0, e1, e2, e3, e4, e5⟩ := block_indices t
  funext j
  obtain ⟨p, q, rfl⟩ : ∃ (p : Fin 10000) (q : Fin 2), j = ix2 p q := ⟨j 0, j 1, eq_ix2 j⟩
  show k2_pay1 (F := Ideal) (iblk2 V c 0 t) (iblk2 V c 1 t) (ix2 p q)
    = Cert.GcnSpec.dense (n := 100000) (k := 16) (c := 2) (V c main_v46) (V c main_arg4) (((cfg2.win 2).blk t).view.emb (ix2 p q))
  refine product_of_blocks _ _ _ _ _ p q (fun r => ?_) (fun r => ?_)
  · show V c main_v46 (((cfg2.win 0).blk t).view.emb (ix2 p r)) = V c main_v46 (ix2 ((((cfg2.win 2).blk t).view.emb (ix2 p q)) 0) r)
    refine congrArg (V c main_v46) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * r.val = r.val; omega
  · show V c main_arg4 (((cfg2.win 1).blk t).view.emb (ix2 r q)) = V c main_arg4 (ix2 r ((((cfg2.win 2).blk t).view.emb (ix2 p q)) 1))
    refine congrArg (V c main_arg4) ?_
    funext a; apply Fin.ext
    match a with
    | ⟨0, _⟩ => show win2_1.index t (0 : Fin 2) * 16 + 1 * r.val = r.val; omega
    | ⟨1, _⟩ => show win2_1.index t (1 : Fin 2) * 2 + 1 * q.val = win2_2.index t (1 : Fin 2) * 2 + 1 * q.val; omega

/-- An index of the output array is in a point's block iff each coordinate is in the block's range on its axis. -/
theorem mem_block (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v47).slice (win2_2.rect t)).set ↔ _
  rw [View.set_slice_whole, Rect.mem_set_unit]
  exact Iff.rfl

/-- Every index of the output array is in some point's block: row r is in block r / 10000. -/
theorem covered (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

theorem value (c : Dev nD) :
    (dat2 (F := Ideal) V c).arrAt 2 cfg2.N = Cert.GcnSpec.dense (n := 100000) (k := 16) (c := 2) (V c main_v46) (V c main_arg4) :=
  (dat2 (F := Ideal) V c).arrAt_eq_of_cover 2
    (Cert.GcnSpec.dense (n := 100000) (k := 16) (c := 2) (V c main_v46) (V c main_arg4))
    (fun t _ => flushed_eq V c t) covered

end Cert.KernelIdeal.Region2

end
-- ==== Proof.Region3.lean ====
/-
  Region 3: the second layer's bias, ten blocks of 10000 rows.
-/
import proofs.«118971_j29867202576799_1_alg».proof.Proof.Gen.KernelIdeal.Frame
import proofs.«118971_j29867202576799_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The second layer's block at one row and one feature: the row's entry plus that feature's bias. The bias vector
    is viewed as one row and that row is repeated down the block. -/
theorem pay_apply (x0 : Vec Ideal S10000x2 .f32) (x1 : Vec Ideal S2 .f32) (p : Fin 10000) (q : Fin 2) :
    k3_pay1 x0 x1 (ix2 p q) = x0 (ix2 p q) + x1 (ix1 q) := by
  unfold k3_pay1
  refine (addf_apply _ _ _).trans ?_
  rw [shapeCast_self]
  congr 1
  refine (broadcastTo_1b_ab_apply _ _ p q).trans ?_
  rw [shapeCast_self]
  exact shapeCast_a_1a_apply x1 _ 0 q

/-- The same at any index of the block. -/
theorem pay_at (x0 : Vec Ideal S10000x2 .f32) (x1 : Vec Ideal S2 .f32) (j : S10000x2.Idx) :
    k3_pay1 x0 x1 j = x0 j + x1 (ix1 (j 1)) := by
  have e : j = ix2 (n0 := 10000) (n1 := 2) (j 0) (j 1) := eq_ix2 j
  exact (congrArg (k3_pay1 x0 x1) e).trans
    ((pay_apply x0 x1 (j 0) (j 1)).trans (congrArg (fun y => x0 y + x1 (ix1 (j 1))) e.symm))

/-- An entry plus a bias, read at equal places. -/
theorem entry_congr (a : FVec Ideal S100000x2 .f32) (b : FVec Ideal S2 .f32) {i i' : S100000x2.Idx} {k k' : S2.Idx}
    (hi : i = i') (hk : k = k') : a i + b k = a i' + b k' := by rw [hi, hk]

theorem zero2 : (![0, 0] : Fin 2 → Nat) = fun _ => 0 := funext fun a => by fin_cases a <;> rfl
theorem zero1 : (![0] : Fin 1 → Nat) = fun _ => 0 := funext fun a => by fin_cases a; rfl

/-- The index maps over the ten points: the input rows move with the output rows, block `t` of rows at point `t`; the
    feature axis is never cut; the bias is the whole vector at every point. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 1) = 0
    ∧ win3_2.index t (0 : Fin 2) = t.val
    ∧ win3_2.index t (1 : Fin 2) = 0 :=
  (by decide +kernel : ∀ t : Fin grid3.N, _)

/-- What point `t` writes back is block `t` of the biased array. -/
theorem flushed_eq (c : Dev nD) (t : Fin cfg3.N) :
    (dat3 (F := Ideal) V c).flushed 2 t = ((cfg3.win 2).blk t).view.read (Elt Ideal) (Cert.GcnSpec.addBias (n := 100000) (c := 2) (V c main_v60) (V c main_arg5)) := by
  show (cfg3.win 2).cut (grid3.coords t) ((dat3 V c).after 2 t) = _
  rw [after3_2]
  unfold out3_2
  rw [View.canon_unit_zero zero2]
  simp only [View.ld_unit_zero (S := S10000x2) zero2, View.ld_unit_zero (S := S2) zero1]
  obtain ⟨e0, e1, e2, e3, e4⟩ := index_facts t
  funext j
  show k3_pay1 (iblk3 V c 0 t) (iblk3 V c 1 t) j = Cert.GcnSpec.addBias (n := 100000) (c := 2) (V c main_v60) (V c main_arg5) (((cfg3.win 2).blk t).view.emb j)
  refine (pay_at _ _ j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 2 + 1 * (j 1).val = win3_2.index t (1 : Fin 2) * 2 + 1 * (j 1).val; omega
  have h1 : ((cfg3.win 1).blk t).view.emb (ix1 (j 1)) = ix1 ((((cfg3.win 2).blk t).view.emb j) 1) := by
    funext a; apply Fin.ext
    match a with
    | ⟨0, _⟩ => show win3_1.index t (0 : Fin 1) * 2 + 1 * (j 1).val = win3_2.index t (1 : Fin 2) * 2 + 1 * (j 1).val; omega
  exact entry_congr (V c main_v60) (V c main_arg5) h0 h1

/-- An index of the array is in point `t`'s block iff each coordinate is in the block's range on its axis. -/
theorem mem_blk (t : Fin cfg3.N) (i : S100000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v61).slice (win3_2.rect t)).set ↔ _
  rw [View.set_slice_whole, Rect.mem_set_unit]
  exact Iff.rfl

/-- Every row is in the block of the point numbered by the row's ten-thousand. -/
theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : grid3.N = 10 := N_3
  have ht : (i 0).val / 10000 < cfg3.N := by show _ < grid3.N; rw [hN]; omega
  obtain ⟨e0, e1, e2, e3, e4⟩ := index_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e3]; show (i 0).val / 10000 * 10000 ≤ (i 0).val ∧ (i 0).val < (i 0).val / 10000 * 10000 + 10000; omega
  | ⟨1, _⟩ =>
    show win3_2.index ⟨(i 0).val / 10000, ht⟩ (1 : Fin 2) * 2 ≤ (i 1).val ∧ (i 1).val < win3_2.index ⟨(i 0).val / 10000, ht⟩ (1 : Fin 2) * 2 + 2
    rw [e4]; omega

theorem value (c : Dev nD) :
    (dat3 (F := Ideal) V c).arrAt 2 cfg3.N = Cert.GcnSpec.addBias (n := 100000) (c := 2) (V c main_v60) (V c main_arg5) :=
  (dat3 (F := Ideal) V c).arrAt_eq_of_cover 2 (Cert.GcnSpec.addBias (n := 100000) (c := 2) (V c main_v60) (V c main_arg5))
    (fun t _ => flushed_eq V c t) cover

end Cert.KernelIdeal.Region3

end
-- ==== Proof.KernelFold.lean ====
/-
  The idealized kernel's result, read back through @main. Between the four dense regions the program runs host stretches:
  before region 0 it builds the edge endpoints (with the self loops) and every edge's weight; after region 0 it
  aggregates the 16 features; regions 1 and 2 follow one another; then it aggregates the 2 features and region 3 adds the
  last bias. Each stretch is read ONCE, from arbitrary contents, as the named function of Chain.lean applied to the
  buffers it reads; what a stretch or a region does not write it keeps; and each region's output array is the dense stage
  of Spec.lean of its two operand arrays. Composed from the launch contents, the result buffer holds the network
  `Cert.Gcn.spec` of the six argument arrays.
-/
import proofs.«118971_j29867202576799_1_alg».proof.Proof.Gen.KernelIdeal.Frame
import proofs.«118971_j29867202576799_1_alg».proof.Proof.Chain
import proofs.«118971_j29867202576799_1_alg».proof.Proof.Region0
import proofs.«118971_j29867202576799_1_alg».proof.Proof.Region1
import proofs.«118971_j29867202576799_1_alg».proof.Proof.Region2
import proofs.«118971_j29867202576799_1_alg».proof.Proof.Region3
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-- Reads what is left of a line's results under the pieces of a joined array, one result at a time. -/
local macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The host stretches, from arbitrary contents -/

section Stretches

variable (W : Valuation τ sig (Elt Ideal))

/-- The three stretches before region 0, run one after the other. -/
abbrev pre : Valuation τ sig (Elt Ideal) := after (hostOps0_2 (F := Ideal)) (after hostOps0_1 (after hostOps0 W))

set_option maxHeartbeats 4000000 in
/-- They leave the source endpoints of the edge list they were given … -/
theorem pre_src : pre W (Proc.devRef .tc main_v3) = Cert.Gcn.srcOf (W (Proc.devRef .tc main_arg1)) := by
  dsimp only [pre, hostOps0, hostOps0_1, hostOps0_2]
  after_results_simp
  results_inside
  rfl

set_option maxHeartbeats 4000000 in
/-- … its destination endpoints … -/
theorem pre_dst : pre W (Proc.devRef .tc main_v6) = Cert.Gcn.dstOf (W (Proc.devRef .tc main_arg1)) := by
  dsimp only [pre, hostOps0, hostOps0_1, hostOps0_2]
  after_results_simp
  results_inside
  rfl

set_option maxHeartbeats 4000000 in
/-- The first stretch alone: the destinations, and from them "the in-degree is positive" and the inverse square root of the
    degree held at least 1, and the zero that stands where the degree is not positive. -/
theorem first_stretch : after (hostOps0 (F := Ideal)) W (Proc.devRef .tc main_v3) = Cert.Gcn.srcOf (W (Proc.devRef .tc main_arg1))
    ∧ after (hostOps0 (F := Ideal)) W (Proc.devRef .tc main_v6) = Cert.Gcn.dstOf (W (Proc.devRef .tc main_arg1))
    ∧ after (hostOps0 (F := Ideal)) W (Proc.devRef .tc main_v12)
        = cmpf (F := Ideal) .ogt (Cert.Gcn.degOf (Cert.Gcn.dstOf (W (Proc.devRef .tc main_arg1)))) (broadcastInDim S100000 ![] bcast_S_S100000 (constant (F := Ideal) S_ .f32 0x00000000#32))
    ∧ after (hostOps0 (F := Ideal)) W (Proc.devRef .tc main_v15)
        = Host.rsqrt (F := Ideal) (maximumf (F := Ideal) (Cert.Gcn.degOf (Cert.Gcn.dstOf (W (Proc.devRef .tc main_arg1)))) (broadcastInDim S100000 ![] bcast_S_S100000 (constant (F := Ideal) S_ .f32 0x3F800000#32)))
    ∧ after (hostOps0 (F := Ideal)) W (Proc.devRef .tc main_cst_3) = constant (F := Ideal) S_ .f32 0x00000000#32 := by
  dsimp only [hostOps0]
  refine ⟨?_, ?_, ?_, ?_, ?_⟩ <;> after_results_simp <;> results_inside <;> rfl

set_option maxHeartbeats 4000000 in
/-- The second stretch alone (the outlined selection): the inverse square root where the degree is positive, zero elsewhere;
    the endpoints kept. -/
theorem second_stretch : after (hostOps0_1 (F := Ideal)) W (Proc.devRef .tc main_v16)
      = select (W (Proc.devRef .tc main_v12)) (W (Proc.devRef .tc main_v15)) (broadcastInDim S100000 ![] bcast_S_S100000 (id (W (Proc.devRef .tc main_cst_3))))
    ∧ after (hostOps0_1 (F := Ideal)) W (Proc.devRef .tc main_v3) = W (Proc.devRef .tc main_v3)
    ∧ after (hostOps0_1 (F := Ideal)) W (Proc.devRef .tc main_v6) = W (Proc.devRef .tc main_v6) := by
  dsimp only [hostOps0_1]
  refine ⟨?_, ?_, ?_⟩
  · after_results_simp
    rfl
  · after_results_simp
  · after_results_simp

set_option maxHeartbeats 4000000 in
/-- The third stretch alone: each edge's weight from the per-node factor and the two (wrapped) endpoints. -/
theorem third_stretch : after (hostOps0_2 (F := Ideal)) W (Proc.devRef .tc main_v31)
    = mulf (F := Ideal) (s := S3300000) (φ := .f32) (Host.gather gather_S100000_S3300000x1_S3300000_n_0_n_n_0_1_1 (W (Proc.devRef .tc main_v16)) (broadcastInDim S3300000x1 ![0] bcast_S3300000_S3300000x1_0 (Cert.Gcn.wrap (W (Proc.devRef .tc main_v3)))))
        (Host.gather gather_S100000_S3300000x1_S3300000_n_0_n_n_0_1_1 (W (Proc.devRef .tc main_v16)) (broadcastInDim S3300000x1 ![0] bcast_S3300000_S3300000x1_0 (Cert.Gcn.wrap (W (Proc.devRef .tc main_v6))))) := by
  dsimp only [hostOps0_2]
  after_results_simp
  rfl

/-- … and every edge's weight. -/
theorem pre_norm : pre W (Proc.devRef .tc main_v31)
    = Cert.Gcn.normOf (Cert.Gcn.srcOf (W (Proc.devRef .tc main_arg1))) (Cert.Gcn.dstOf (W (Proc.devRef .tc main_arg1))) := by
  refine (third_stretch (after hostOps0_1 (after hostOps0 W))).trans ?_
  have h2 := second_stretch (after (hostOps0 (F := Ideal)) W)
  have h1 := first_stretch W
  rw [h2.1, h2.2.1, h2.2.2, h1.1, h1.2.1, h1.2.2.1, h1.2.2.2.1, h1.2.2.2.2]
  rfl

set_option maxHeartbeats 4000000 in
/-- They write no argument. -/
theorem pre_args : pre W (Proc.devRef .tc main_arg0) = W (Proc.devRef .tc main_arg0)
    ∧ pre W (Proc.devRef .tc main_arg2) = W (Proc.devRef .tc main_arg2)
    ∧ pre W (Proc.devRef .tc main_arg3) = W (Proc.devRef .tc main_arg3)
    ∧ pre W (Proc.devRef .tc main_arg4) = W (Proc.devRef .tc main_arg4)
    ∧ pre W (Proc.devRef .tc main_arg5) = W (Proc.devRef .tc main_arg5) := by
  dsimp only [pre, hostOps0, hostOps0_1, hostOps0_2]
  refine ⟨?_, ?_, ?_, ?_, ?_⟩ <;> after_results_simp

set_option maxHeartbeats 4000000 in
/-- The stretch after region 0 aggregates the 16 features it finds in region 0's output. -/
theorem mid_agg : after (hostOps1 (F := Ideal)) W (Proc.devRef .tc main_v45)
    = Cert.Gcn.agg16 (W (Proc.devRef .tc main_v3)) (W (Proc.devRef .tc main_v6)) (W (Proc.devRef .tc main_v31)) (W (Proc.devRef .tc main_v32)) := by
  dsimp only [hostOps1]
  after_results_simp
  rfl

set_option maxHeartbeats 4000000 in
/-- It keeps the endpoints, the weights and the later stages' parameters. -/
theorem mid_kept : after (hostOps1 (F := Ideal)) W (Proc.devRef .tc main_v3) = W (Proc.devRef .tc main_v3)
    ∧ after (hostOps1 (F := Ideal)) W (Proc.devRef .tc main_v6) = W (Proc.devRef .tc main_v6)
    ∧ after (hostOps1 (F := Ideal)) W (Proc.devRef .tc main_v31) = W (Proc.devRef .tc main_v31)
    ∧ after (hostOps1 (F := Ideal)) W (Proc.devRef .tc main_arg3) = W (Proc.devRef .tc main_arg3)
    ∧ after (hostOps1 (F := Ideal)) W (Proc.devRef .tc main_arg4) = W (Proc.devRef .tc main_arg4)
    ∧ after (hostOps1 (F := Ideal)) W (Proc.devRef .tc main_arg5) = W (Proc.devRef .tc main_arg5) := by
  dsimp only [hostOps1]
  refine ⟨?_, ?_, ?_, ?_, ?_, ?_⟩ <;> after_results_simp

set_option maxHeartbeats 4000000 in
/-- The stretch after region 2 aggregates the 2 features it finds in region 2's output. -/
theorem last_agg : after (hostOps3 (F := Ideal)) W (Proc.devRef .tc main_v60)
    = Cert.Gcn.agg2 (W (Proc.devRef .tc main_v3)) (W (Proc.devRef .tc main_v6)) (W (Proc.devRef .tc main_v31)) (W (Proc.devRef .tc main_v47)) := by
  dsimp only [hostOps3]
  after_results_simp
  rfl

set_option maxHeartbeats 4000000 in
/-- It keeps the last bias. -/
theorem last_kept : after (hostOps3 (F := Ideal)) W (Proc.devRef .tc main_arg5) = W (Proc.devRef .tc main_arg5) := by
  dsimp only [hostOps3]
  after_results_simp

end Stretches

/-! ## The contents at each boundary of @main -/

variable (m : (ℓ : Loc nD τ sig) → Buf (Elt Ideal) ℓ) (ρ : Dev nD → PrngReg) (c : Dev nD)

/-- What every boundary from region 0's entry on still holds: the endpoints, the weights, and the parameters of the stages to come. -/
structure Carried (X : Valuation τ sig (Elt Ideal)) : Prop where
  src : X (Proc.devRef .tc main_v3) = Cert.Gcn.srcOf (m ((c : Thread nD τ).loc main_arg1))
  dst : X (Proc.devRef .tc main_v6) = Cert.Gcn.dstOf (m ((c : Thread nD τ).loc main_arg1))
  nrm : X (Proc.devRef .tc main_v31) = Cert.Gcn.normOf (Cert.Gcn.srcOf (m ((c : Thread nD τ).loc main_arg1))) (Cert.Gcn.dstOf (m ((c : Thread nD τ).loc main_arg1)))
  b1 : X (Proc.devRef .tc main_arg3) = m ((c : Thread nD τ).loc main_arg3)
  w2 : X (Proc.devRef .tc main_arg4) = m ((c : Thread nD τ).loc main_arg4)
  b2 : X (Proc.devRef .tc main_arg5) = m ((c : Thread nD τ).loc main_arg5)

/-- At region 0's entry. -/
theorem carried3 : Carried m c (W3 m ρ c) :=
  ⟨pre_src (W0 m ρ c), pre_dst (W0 m ρ c), pre_norm (W0 m ρ c), (pre_args (W0 m ρ c)).2.2.1, (pre_args (W0 m ρ c)).2.2.2.1, (pre_args (W0 m ρ c)).2.2.2.2⟩

/-- Region 0 writes none of them … -/
theorem carried4 : Carried m c (W4 m ρ c) :=
  have h := carried3 m ρ c
  ⟨(W4_of_ne m ρ c main_v3 (by decide)).trans h.src, (W4_of_ne m ρ c main_v6 (by decide)).trans h.dst,
   (W4_of_ne m ρ c main_v31 (by decide)).trans h.nrm, (W4_of_ne m ρ c main_arg3 (by decide)).trans h.b1,
   (W4_of_ne m ρ c main_arg4 (by decide)).trans h.w2, (W4_of_ne m ρ c main_arg5 (by decide)).trans h.b2⟩

/-- … nor does the aggregation after it … -/
theorem carried5 : Carried m c (W5 m ρ c) :=
  have h := carried4 m ρ c
  have k := mid_kept (W4 m ρ c)
  ⟨k.1.trans h.src, k.2.1.trans h.dst, k.2.2.1.trans h.nrm, k.2.2.2.1.trans h.b1, k.2.2.2.2.1.trans h.w2, k.2.2.2.2.2.trans h.b2⟩

/-- … nor region 1 … -/
theorem carried6 : Carried m c (W6 m ρ c) :=
  have h := carried5 m ρ c
  ⟨(W6_of_ne m ρ c main_v3 (by decide)).trans h.src, (W6_of_ne m ρ c main_v6 (by decide)).trans h.dst,
   (W6_of_ne m ρ c main_v31 (by decide)).trans h.nrm,
   ((W6_arr m ρ c 1).trans (((dat1 (V5 m ρ) c).arrAt_in 1 rfl _).trans (A_eq1 (V5 m ρ) c 1))).trans h.b1,
   (W6_of_ne m ρ c main_arg4 (by decide)).trans h.w2, (W6_of_ne m ρ c main_arg5 (by decide)).trans h.b2⟩

/-- … nor region 2. -/
theorem carried7 : Carried m c (W7 m ρ c) :=
  have h := carried6 m ρ c
  ⟨(W7_of_ne m ρ c main_v3 (by decide)).trans h.src, (W7_of_ne m ρ c main_v6 (by decide)).trans h.dst,
   (W7_of_ne m ρ c main_v31 (by decide)).trans h.nrm, (W7_of_ne m ρ c main_arg3 (by decide)).trans h.b1,
   ((W7_arr m ρ c 1).trans (((dat2 (V6 m ρ) c).arrAt_in 1 rfl _).trans (A_eq2 (V6 m ρ) c 1))).trans h.w2, (W7_of_ne m ρ c main_arg5 (by decide)).trans h.b2⟩

/-! ## The values, stage by stage -/

/-- Region 0's output: the first product of the launched features and weights. -/
theorem product1 : W4 m ρ c (Proc.devRef .tc main_v32)
    = Cert.GcnSpec.dense (n := 100000) (k := 128) (c := 16) (m ((c : Thread nD τ).loc main_arg0)) (m ((c : Thread nD τ).loc main_arg2)) := by
  refine (W4_arr m ρ c 2).trans ((Cert.KernelIdeal.Region0.value (V3 m ρ) c).trans ?_)
  show Cert.GcnSpec.dense (n := 100000) (k := 128) (c := 16) (pre (W0 m ρ c) (Proc.devRef .tc main_arg0)) (pre (W0 m ρ c) (Proc.devRef .tc main_arg2)) = _
  rw [(pre_args (W0 m ρ c)).1, (pre_args (W0 m ρ c)).2.1]

/-- The first aggregation. -/
theorem aggregated1 : W5 m ρ c (Proc.devRef .tc main_v45)
    = Cert.Gcn.agg16 (Cert.Gcn.srcOf (m ((c : Thread nD τ).loc main_arg1))) (Cert.Gcn.dstOf (m ((c : Thread nD τ).loc main_arg1)))
        (Cert.Gcn.normOf (Cert.Gcn.srcOf (m ((c : Thread nD τ).loc main_arg1))) (Cert.Gcn.dstOf (m ((c : Thread nD τ).loc main_arg1))))
        (Cert.GcnSpec.dense (n := 100000) (k := 128) (c := 16) (m ((c : Thread nD τ).loc main_arg0)) (m ((c : Thread nD τ).loc main_arg2))) := by
  refine (mid_agg (W4 m ρ c)).trans ?_
  rw [(carried4 m ρ c).src, (carried4 m ρ c).dst, (carried4 m ρ c).nrm, product1 m ρ c]

/-- Region 1's output: the bias and the positive part. -/
theorem hidden : W6 m ρ c (Proc.devRef .tc main_v46)
    = Cert.GcnSpec.relu (n := 100000) (c := 16) (Cert.GcnSpec.addBias
        (Cert.Gcn.agg16 (Cert.Gcn.srcOf (m ((c : Thread nD τ).loc main_arg1))) (Cert.Gcn.dstOf (m ((c : Thread nD τ).loc main_arg1)))
          (Cert.Gcn.normOf (Cert.Gcn.srcOf (m ((c : Thread nD τ).loc main_arg1))) (Cert.Gcn.dstOf (m ((c : Thread nD τ).loc main_arg1))))
          (Cert.GcnSpec.dense (n := 100000) (k := 128) (c := 16) (m ((c : Thread nD τ).loc main_arg0)) (m ((c : Thread nD τ).loc main_arg2))))
        (m ((c : Thread nD τ).loc main_arg3))) := by
  refine (W6_arr m ρ c 2).trans ((Cert.KernelIdeal.Region1.value (V5 m ρ) c).trans ?_)
  show Cert.GcnSpec.relu (n := 100000) (c := 16) (Cert.GcnSpec.addBias (W5 m ρ c (Proc.devRef .tc main_v45)) (W5 m ρ c (Proc.devRef .tc main_arg3))) = _
  rw [aggregated1 m ρ c, (carried5 m ρ c).b1]

/-- Region 2's output: the second product. -/
theorem product2 : W7 m ρ c (Proc.devRef .tc main_v47)
    = Cert.GcnSpec.dense (n := 100000) (k := 16) (c := 2) (Cert.GcnSpec.relu (n := 100000) (c := 16) (Cert.GcnSpec.addBias
        (Cert.Gcn.agg16 (Cert.Gcn.srcOf (m ((c : Thread nD τ).loc main_arg1))) (Cert.Gcn.dstOf (m ((c : Thread nD τ).loc main_arg1)))
          (Cert.Gcn.normOf (Cert.Gcn.srcOf (m ((c : Thread nD τ).loc main_arg1))) (Cert.Gcn.dstOf (m ((c : Thread nD τ).loc main_arg1))))
          (Cert.GcnSpec.dense (n := 100000) (k := 128) (c := 16) (m ((c : Thread nD τ).loc main_arg0)) (m ((c : Thread nD τ).loc main_arg2))))
        (m ((c : Thread nD τ).loc main_arg3)))) (m ((c : Thread nD τ).loc main_arg4)) := by
  refine (W7_arr m ρ c 2).trans ((Cert.KernelIdeal.Region2.value (V6 m ρ) c).trans ?_)
  show Cert.GcnSpec.dense (n := 100000) (k := 16) (c := 2) (W6 m ρ c (Proc.devRef .tc main_v46)) (W6 m ρ c (Proc.devRef .tc main_arg4)) = _
  rw [hidden m ρ c, (carried6 m ρ c).w2]

/-- The result buffer at the end of @main: the whole network of the launched arrays. -/
theorem result_eq : W9 m ρ c (Proc.devRef .tc main_v61)
    = Cert.Gcn.spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((Cert.KernelIdeal.Region3.value (V8 m ρ) c).trans ?_)
  show Cert.GcnSpec.addBias (n := 100000) (c := 2) (after (hostOps3 (F := Ideal)) (W7 m ρ c) (Proc.devRef .tc main_v60)) (after (hostOps3 (F := Ideal)) (W7 m ρ c) (Proc.devRef .tc main_arg5)) = _
  rw [last_agg (W7 m ρ c), last_kept (W7 m ρ c), (carried7 m ρ c).src, (carried7 m ρ c).dst, (carried7 m ρ c).nrm, product2 m ρ c, (carried7 m ρ c).b2]
  rfl

end Cert.KernelIdeal.Fold

end
-- ==== Proof.RefValue.lean ====
/-
  The reference's result is the network of Chain.lean around the dense stages as the reference prints them (two host matrix
  products; a bias broadcast over the rows and added, then the maximum with a zero splat; a bias broadcast and added), and
  each of those printed stages is, on the extended reals, the stage the mathematics states: a host matrix product with
  one contracted axis is the sum over that axis of the products, a broadcast bias read at `(p, q)` is the bias of
  feature `q`, and the maximum with the zero splat is the positive part.
-/
import proofs.«118971_j29867202576799_1_alg».proof.Proof.RefRun
import Idealize.ShloMosaic.Lib.Pipeline.Value
import Idealize.ShloMosaic.Lib.ValueIdx
import Idealize.ShloMosaic.PureOps.Ideal.Laws
import proofs.«118971_j29867202576799_1_alg».proof.Proof.Chain

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The first layer's product as the reference prints it. -/
def refD1 (x : FVec Ideal S100000x128 .f32) (w : FVec Ideal S128x16 .f32) : FVec Ideal S100000x16 .f32 :=
  Host.dotGeneral (F := Ideal) dot_S100000x128_S128x16_S100000x16_1_0_0_1_n_n none x w

/-- The first layer's bias and positive part as the reference prints them. -/
def refB1 (a : FVec Ideal S100000x16 .f32) (b : FVec Ideal S16 .f32) : FVec Ideal S100000x16 .f32 :=
  maximumf (F := Ideal) (addf (F := Ideal) a (broadcastInDim S100000x16 ![0, 1] bcast_S1x16_S100000x16_0_1 (broadcastInDim S1x16 ![1] bcast_S16_S1x16_1 b))) (broadcastInDim S100000x16 ![] bcast_S_S100000x16 (constant (F := Ideal) S_ .f32 0x00000000#32))

/-- The second layer's product as the reference prints it. -/
def refD2 (x : FVec Ideal S100000x16 .f32) (w : FVec Ideal S16x2 .f32) : FVec Ideal S100000x2 .f32 :=
  Host.dotGeneral (F := Ideal) dot_S100000x16_S16x2_S100000x2_1_0_0_1_n_n none x w

/-- The second layer's bias as the reference prints it. -/
def refB2 (a : FVec Ideal S100000x2 .f32) (b : FVec Ideal S2 .f32) : FVec Ideal S100000x2 .f32 :=
  addf (F := Ideal) a (broadcastInDim S100000x2 ![0, 1] bcast_S1x2_S100000x2_0_1 (broadcastInDim S1x2 ![1] bcast_S2_S1x2_1 b))

set_option maxRecDepth 8192 in
/-- The reference run's result term is the network around the printed dense stages. -/
theorem res_eq_net (m : (ℓ : Loc nD τ sig) → Buf (Elt Ideal) ℓ) (c : Dev nD) :
    Cert.ReferenceIdeal.RunP.res_main_v91 (F := Ideal) m c
      = Cert.Gcn.net refD1 refB1 refD2 refB2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  unfold Cert.ReferenceIdeal.RunP.res_main_v91
  rfl

/-- In the first layer's product the left operand's row coordinate is the output's row. -/
theorem dot128_left_row (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
/-- … and its column coordinate is the contracted index. -/
theorem dot128_left_col (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q
/-- The right operand's row coordinate is the contracted index … -/
theorem dot128_right_row (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q
/-- … and its column coordinate is the output's column. -/
theorem dot128_right_col (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

/-- The first layer's host product at `(p, q)`, whatever its operands: the sum over the 128 contracted features of row `p` of the
    left operand times column `q` of the right one. -/
theorem dot128_at (y : FVec Ideal S100000x128 .f32) (w : FVec Ideal S128x16 .f32) (i : S100000x16.Idx) :
    Host.dotGeneral (F := Ideal) dot_S100000x128_S128x16_S100000x16_1_0_0_1_n_n none y w i
      = ∑ r : Fin 128, y (ix2 (i 0) r) * w (ix2 r (i 1)) := by
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun r _ => ?_
  have hr := ValueIdx.contrEquiv1_symm_val dot_S100000x128_S128x16_S100000x16_1_0_0_1_n_n 128 rfl rfl r
  have hleft : dot_S100000x128_S128x16_S100000x16_1_0_0_1_n_n.lhsIdx i ((ValueIdx.contrEquiv1 dot_S100000x128_S128x16_S100000x16_1_0_0_1_n_n 128 rfl rfl).symm r) = ix2 (i 0) r := funext fun a => Fin.ext (by
    match a with
    | ⟨0, _⟩ => exact dot128_left_row _ _
    | ⟨1, _⟩ => exact (dot128_left_col _ _).trans hr)
  have hright : dot_S100000x128_S128x16_S100000x16_1_0_0_1_n_n.rhsIdx i ((ValueIdx.contrEquiv1 dot_S100000x128_S128x16_S100000x16_1_0_0_1_n_n 128 rfl rfl).symm r) = ix2 r (i 1) := funext fun a => Fin.ext (by
    match a with
    | ⟨0, _⟩ => exact (dot128_right_row _ _).trans hr
    | ⟨1, _⟩ => exact dot128_right_col _ _)
  exact congrArg₂ (fun s t : EReal => s * t) (congrArg y hleft) (congrArg w hright)

/-- The first product at `(p, q)`: the sum over the 128 input features of row `p` times column `q`. -/
theorem refD1_eq : refD1 = Cert.GcnSpec.dense (n := 100000) (k := 128) (c := 16) := by
  funext x w i
  exact dot128_at x w i

/-- The first layer's bias, broadcast over the rows, read at `(p, q)`: the bias of feature `q`. -/
theorem bias16_at (b : FVec Ideal S16 .f32) (i : S100000x16.Idx) :
    broadcastInDim S100000x16 ![0, 1] bcast_S1x16_S100000x16_0_1 (broadcastInDim S1x16 ![1] bcast_S16_S1x16_1 b) i = b (ix1 (i 1)) := by
  have hrows : broadcastInDim S100000x16 ![0, 1] bcast_S1x16_S100000x16_0_1 (broadcastInDim S1x16 ![1] bcast_S16_S1x16_1 b) i
      = broadcastInDim S1x16 ![1] bcast_S16_S1x16_1 b (ix2 (n0 := 1) (n1 := 16) 0 (i 1)) := by
    generalize broadcastInDim S1x16 ![1] bcast_S16_S1x16_1 b = y
    exact broadcastInDim_apply _ bcast_S1x16_S100000x16_0_1 y i (ix2 (n0 := 1) (n1 := 16) 0 (i 1)) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  have hfeat : broadcastInDim S1x16 ![1] bcast_S16_S1x16_1 b (ix2 (n0 := 1) (n1 := 16) 0 (i 1)) = b (ix1 (i 1)) :=
    broadcastInDim_apply _ bcast_S16_S1x16_1 b (ix2 (n0 := 1) (n1 := 16) 0 (i 1)) (ix1 (i 1)) (fun a => match a with
      | ⟨0, _⟩ => by show (i 1).val = if (16 : Nat) = 1 then 0 else (i 1).val; rw [if_neg (by decide)])
  exact hrows.trans hfeat

/-- The zero splat under the first layer's maximum is `0` at every index. -/
theorem zero16_at (i : S100000x16.Idx) :
    broadcastInDim S100000x16 ![] bcast_S_S100000x16 (constant (F := Ideal) S_ .f32 0x00000000#32) i = (0 : EReal) := by
  have hsplat : broadcastInDim S100000x16 ![] bcast_S_S100000x16 (constant (F := Ideal) S_ .f32 0x00000000#32) i
      = constant (F := Ideal) S_ .f32 0x00000000#32 (fun a => a.elim0) := by
    generalize constant (F := Ideal) S_ .f32 0x00000000#32 = y
    exact broadcastInDim_apply _ bcast_S_S100000x16 y i (fun a => a.elim0) (fun a => a.elim0)
  rw [hsplat, constant_apply]
  exact Idealize.ShloMosaic.Ideal.ofBits_zero_f32

/-- The first bias stage at `(p, q)`: the positive part of the entry plus the bias of feature `q`. -/
theorem refB1_eq : refB1 = fun a b => Cert.GcnSpec.relu (n := 100000) (c := 16) (Cert.GcnSpec.addBias a b) := by
  funext a b i
  calc refB1 a b i
      = max (a i + broadcastInDim S100000x16 ![0, 1] bcast_S1x16_S100000x16_0_1 (broadcastInDim S1x16 ![1] bcast_S16_S1x16_1 b) i)
          (broadcastInDim S100000x16 ![] bcast_S_S100000x16 (constant (F := Ideal) S_ .f32 0x00000000#32) i) := rfl
    _ = max (a i + b (ix1 (i 1))) 0 := by rw [bias16_at, zero16_at]
    _ = Cert.GcnSpec.relu (n := 100000) (c := 16) (Cert.GcnSpec.addBias a b) i := rfl

/-- In the second layer's product the left operand's row coordinate is the output's row. -/
theorem dot16_left_row (i : S100000x2.Idx) (q : dot_S100000x16_S16x2_S100000x2_1_0_0_1_n_n.contr.Idx) :
    (dot_S100000x16_S16x2_S100000x2_1_0_0_1_n_n.lhsIdx i q 0).val = (i 0).val := by
  unfold DotDims.lhsIdx
  rw [dif_neg (show ¬(0 : Fin S100000x16.rank) ∈ dot_S100000x16_S16x2_S100000x2_1_0_0_1_n_n.lhsBatch by decide), dif_pos (show (0 : Fin S100000x16.rank) ∈ dot_S100000x16_S16x2_S100000x2_1_0_0_1_n_n.lhsNonContracting by decide)]
  rfl
/-- … and its column coordinate is the contracted index. -/
theorem dot16_left_col (i : S100000x2.Idx) (q : dot_S100000x16_S16x2_S100000x2_1_0_0_1_n_n.contr.Idx) :
    (dot_S100000x16_S16x2_S100000x2_1_0_0_1_n_n.lhsIdx i q 1).val = (q ⟨0, by decide⟩).val :=
  dot_S100000x16_S16x2_S100000x2_1_0_0_1_n_n.lhsIdx_val_of_single rfl i q
/-- The right operand's row coordinate is the contracted index … -/
theorem dot16_right_row (i : S100000x2.Idx) (q : dot_S100000x16_S16x2_S100000x2_1_0_0_1_n_n.contr.Idx) :
    (dot_S100000x16_S16x2_S100000x2_1_0_0_1_n_n.rhsIdx i q 0).val = (q ⟨0, by decide⟩).val :=
  dot_S100000x16_S16x2_S100000x2_1_0_0_1_n_n.rhsIdx_val_of_single rfl i q
/-- … and its column coordinate is the output's column. -/
theorem dot16_right_col (i : S100000x2.Idx) (q : dot_S100000x16_S16x2_S100000x2_1_0_0_1_n_n.contr.Idx) :
    (dot_S100000x16_S16x2_S100000x2_1_0_0_1_n_n.rhsIdx i q 1).val = (i 1).val := by
  unfold DotDims.rhsIdx
  rw [dif_neg (show ¬(1 : Fin S16x2.rank) ∈ dot_S100000x16_S16x2_S100000x2_1_0_0_1_n_n.rhsBatch by decide), dif_pos (show (1 : Fin S16x2.rank) ∈ dot_S100000x16_S16x2_S100000x2_1_0_0_1_n_n.rhsNonContracting by decide)]
  rfl

/-- The second layer's host product at `(p, q)`, whatever its operands: the sum over the 16 contracted features of row `p` of the
    left operand times column `q` of the right one. -/
theorem dot16_at (y : FVec Ideal S100000x16 .f32) (w : FVec Ideal S16x2 .f32) (i : S100000x2.Idx) :
    Host.dotGeneral (F := Ideal) dot_S100000x16_S16x2_S100000x2_1_0_0_1_n_n none y w i
      = ∑ r : Fin 16, y (ix2 (i 0) r) * w (ix2 r (i 1)) := by
  simp only [Host.dotGeneral]
  rw [Ideal.dotGeneral_apply, ← Equiv.sum_comp (ValueIdx.contrEquiv1 dot_S100000x16_S16x2_S100000x2_1_0_0_1_n_n 16 rfl rfl).symm]
  refine Finset.sum_congr rfl fun r _ => ?_
  have hr := ValueIdx.contrEquiv1_symm_val dot_S100000x16_S16x2_S100000x2_1_0_0_1_n_n 16 rfl rfl r
  have hleft : dot_S100000x16_S16x2_S100000x2_1_0_0_1_n_n.lhsIdx i ((ValueIdx.contrEquiv1 dot_S100000x16_S16x2_S100000x2_1_0_0_1_n_n 16 rfl rfl).symm r) = ix2 (i 0) r := funext fun a => Fin.ext (by
    match a with
    | ⟨0, _⟩ => exact dot16_left_row _ _
    | ⟨1, _⟩ => exact (dot16_left_col _ _).trans hr)
  have hright : dot_S100000x16_S16x2_S100000x2_1_0_0_1_n_n.rhsIdx i ((ValueIdx.contrEquiv1 dot_S100000x16_S16x2_S100000x2_1_0_0_1_n_n 16 rfl rfl).symm r) = ix2 r (i 1) := funext fun a => Fin.ext (by
    match a with
    | ⟨0, _⟩ => exact (dot16_right_row _ _).trans hr
    | ⟨1, _⟩ => exact dot16_right_col _ _)
  exact congrArg₂ (fun s t : EReal => s * t) (congrArg y hleft) (congrArg w hright)

/-- The second product at `(p, q)`: the sum over the 16 hidden features of row `p` times column `q`. -/
theorem refD2_eq : refD2 = Cert.GcnSpec.dense (n := 100000) (k := 16) (c := 2) := by
  funext y w i
  exact dot16_at y w i

/-- The second layer's bias, broadcast over the rows, read at `(p, q)`: the bias of class `q`. -/
theorem bias2_at (b : FVec Ideal S2 .f32) (i : S100000x2.Idx) :
    broadcastInDim S100000x2 ![0, 1] bcast_S1x2_S100000x2_0_1 (broadcastInDim S1x2 ![1] bcast_S2_S1x2_1 b) i = b (ix1 (i 1)) := by
  have hrows : broadcastInDim S100000x2 ![0, 1] bcast_S1x2_S100000x2_0_1 (broadcastInDim S1x2 ![1] bcast_S2_S1x2_1 b) i
      = broadcastInDim S1x2 ![1] bcast_S2_S1x2_1 b (ix2 (n0 := 1) (n1 := 2) 0 (i 1)) := by
    generalize broadcastInDim S1x2 ![1] bcast_S2_S1x2_1 b = y
    exact broadcastInDim_apply _ bcast_S1x2_S100000x2_0_1 y i (ix2 (n0 := 1) (n1 := 2) 0 (i 1)) (fun a => match a with
      | ⟨0, _⟩ => by show 0 = if (1 : Nat) = 1 then 0 else (i 0).val; rw [if_pos rfl]
      | ⟨1, _⟩ => by show (i 1).val = if (2 : Nat) = 1 then 0 else (i 1).val; rw [if_neg (by decide)])
  have hfeat : broadcastInDim S1x2 ![1] bcast_S2_S1x2_1 b (ix2 (n0 := 1) (n1 := 2) 0 (i 1)) = b (ix1 (i 1)) :=
    broadcastInDim_apply _ bcast_S2_S1x2_1 b (ix2 (n0 := 1) (n1 := 2) 0 (i 1)) (ix1 (i 1)) (fun a => match a with
      | ⟨0, _⟩ => by show (i 1).val = if (2 : Nat) = 1 then 0 else (i 1).val; rw [if_neg (by decide)])
  exact hrows.trans hfeat

/-- The second bias stage at `(p, q)`: the entry plus the bias of class `q`. -/
theorem refB2_eq : refB2 = Cert.GcnSpec.addBias (n := 100000) (c := 2) := by
  funext a b i
  calc refB2 a b i
      = a i + broadcastInDim S100000x2 ![0, 1] bcast_S1x2_S100000x2_0_1 (broadcastInDim S1x2 ![1] bcast_S2_S1x2_1 b) i := rfl
    _ = a i + b (ix1 (i 1)) := by rw [bias2_at]
    _ = Cert.GcnSpec.addBias (n := 100000) (c := 2) a b i := rfl

/-- The reference run's result term is the network as the mathematics states it. -/
theorem res_eq_spec (m : (ℓ : Loc nD τ sig) → Buf (Elt Ideal) ℓ) (c : Dev nD) :
    Cert.ReferenceIdeal.RunP.res_main_v91 (F := Ideal) m c
      = Cert.Gcn.spec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [res_eq_net, refD1_eq, refB1_eq, refD2_eq, refB2_eq]
  rfl

end Cert.ReferenceIdeal.RefValue

end
-- ==== Proof.lean ====
/-
  A two-layer graph convolution on 100000 nodes and 3.2 million edges: the accelerator program computes the two matrix
  products (features × weights, rounded to bf16 on the way in, which is the identity on the extended reals) and the two
  bias stages (the first followed by the positive part) block by block, ten blocks of 10000 rows each, and leaves the
  sparse aggregation between them — gather the source rows, scale by the symmetric degree normalisation, add into the
  destination rows — to the host; the reference does everything on the host. On the extended reals both end with the
  same array: the aggregations are the same host computation on both sides and are carried unopened, each dense region's
  output array is the stage the mathematics states (a sum over the inner axis of products; a bias added per feature; a
  maximum with zero) of its operand arrays, and the reference's host stages are those same functions. No law that needs
  finiteness is used: the precondition is never opened.
  The three frames: the two accelerator programs' runs terminate with the arguments unchanged (the generated frame
  certificates); the reference's is its run with the result dropped. Nothing was rewritten when the program was
  idealized, so there is nothing to preserve.
-/
import proofs.«118971_j29867202576799_1_alg».proof.Defs
import proofs.«118971_j29867202576799_1_alg».proof.Proof.Gen.Kernel
import proofs.«118971_j29867202576799_1_alg».proof.Proof.Gen.Kernel.Frame
import proofs.«118971_j29867202576799_1_alg».proof.Proof.Gen.KernelIdeal
import proofs.«118971_j29867202576799_1_alg».proof.Proof.Gen.KernelIdeal.Frame
import proofs.«118971_j29867202576799_1_alg».proof.Proof.Gen.ReferenceIdeal
import proofs.«118971_j29867202576799_1_alg».proof.Proof.Gen.Pre_finite_inputs
import proofs.«118971_j29867202576799_1_alg».proof.Proof.KernelRun
import proofs.«118971_j29867202576799_1_alg».proof.Proof.KernelFold
import proofs.«118971_j29867202576799_1_alg».proof.Proof.RefRun
import proofs.«118971_j29867202576799_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the network `Cert.Gcn.spec` of the (agreeing) argument arrays in their result buffers. -/
theorem algebraic : Cert.algebraic_KernelIdeal_ReferenceIdeal := by
  intro m ρ m' ρ' _ hagree
  refine ⟨fun c => Cert.Gcn.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.res_eq_spec, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
